-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S100000x256 .f32) (main_arg1 : IVec S800000 32) (main_arg2 : IVec S800000 32) (main_arg3 : FVec F S256x256 .f32) (main_arg4 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S1x256 : Shape := ⟨2, ![1, 256]⟩
abbrev S4000x256 : Shape := ⟨2, ![4000, 256]⟩

abbrev nBuf : Space → Nat
  | .hbm => 34
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x256, .f32⟩
  | .hbm, ⟨14, _⟩ => ⟨S_, .f32⟩
  | .hbm, ⟨15, _⟩ => ⟨S50000x256, .f32⟩
  | .hbm, ⟨16, _⟩ => ⟨S800000x1, .i32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S100000x256, .f32⟩
  | .hbm, ⟨29, _⟩ => ⟨S800000x1, .i32⟩
  | .hbm, ⟨30, _⟩ => ⟨S100000x256, .f32⟩
  | .hbm, ⟨31, _⟩ => ⟨S256x256, .f32⟩
  | .hbm, ⟨32, _⟩ => ⟨S1x256, .f32⟩
  | .hbm, ⟨33, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x256, .f32⟩
  | .local _ .vmem, ⟨5, _⟩ => ⟨S1x256, .f32⟩
  | .local _ .vmem, ⟨6, _⟩ => ⟨S4000x256, .f32⟩
  | .local _ .vmem, ⟨7, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S100000x256 : S_.BroadcastsInDim S100000x256 (![] : Fin 0 → Fin S100000x256.rank)
  transposes_S256x256_S256x256_1_0 : S256x256.Transposes [1, 0] S256x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .f32 = 32 ∨ (Rect.block (s := S100000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x256.size a ≤ S100000x256.size a
  hwx0_4 : ∀ i : grid0.Coords, EltTy.bits .f32 = 32 ∨ (Rect.block (s := S100000x256) S4000x256.size (cc0_transform_4 i) (hinb0_4 i)).WholeWords (EltTy.packing .f32)

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S4000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x256, .f32⟩
  | .hbm, ⟨14, _⟩ => ⟨S_, .f32⟩
  | .hbm, ⟨15, _⟩ => ⟨S50000x256, .f32⟩
  | .hbm, ⟨16, _⟩ => ⟨S800000x1, .i32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S100000x256, .f32⟩
  | .hbm, ⟨29, _⟩ => ⟨S800000x1, .i32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S256x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S100000x256 : S_.BroadcastsInDim S100000x256 (![] : Fin 0 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.BlockValue.lean ====
/-
  One block of the kernel's body, read at an index. The body takes a block of 4000 rows of `x` and of `agg`, the
  whole transposed weights `w` and the bias as a 1 x 256 row `bb`; at the extended reals the two narrowings to
  bf16 are the identity and the matrix product into a zero accumulator is the plain sum, so entry (p, q) of what it
  stores is  (sum over k < 256 of (xb (p, k) + mb (p, k)) * w (k, q)) + bb (0, q).
-/
import proofs.«173245_j17892833755481_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The left operand's row coordinate is the output's row. -/
theorem lhs_row (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- The left operand's column coordinate is the contracted channel. -/
theorem lhs_chan (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- The right operand's row coordinate is the contracted channel. -/
theorem rhs_chan (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- The right operand's column coordinate is the output's column. -/
theorem rhs_col (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The block product at (p, q): the sum over the 256 channels of the left row against the right column. -/
theorem product_apply (l : FVec Ideal S4000x256 .bf16) (r : FVec Ideal S256x256 .bf16) (p : Fin 4000) (q : Fin 256) :
    matmul dot_S4000x256_S256x256_S4000x256_1_0_0_1_n_n none l r (constant (F := Ideal) S4000x256 .f32 0x00000000#32) (ix2 p q)
      = ∑ k : Fin 256, l (ix2 p k) * r (ix2 k q) := by
  show FloatOps.matmul dot_S4000x256_S256x256_S4000x256_1_0_0_1_n_n none l r (constant (F := Ideal) S4000x256 .f32 0x00000000#32) (ix2 p q) = _
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact lhs_row _ _
    | ⟨1, _⟩ => exact (lhs_chan _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (rhs_chan _ _).trans hk
    | ⟨1, _⟩ => exact rhs_col _ _)
  rw [el, er]

/-- The bias row spread over the block reads the row's entry of the column. -/
theorem bias_apply (bb : FVec Ideal S1x256 .f32) (p : Fin 4000) (q : Fin 256) :
    broadcastTo S4000x256 bb broadcasts_S1x256_S4000x256 (ix2 p q) = bb (ix2 0 q) :=
  broadcastTo_apply bb broadcasts_S1x256_S4000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else _; rw [if_neg (by decide)]; rfl)

/-- What the body stores, at (p, q). -/
theorem stored_apply (xb mb : Vec Ideal S4000x256 .f32) (w : Vec Ideal S256x256 .f32) (bb : Vec Ideal S1x256 .f32)
    (p : Fin 4000) (q : Fin 256) :
    k0_pay1 (F := Ideal) xb mb w bb (ix2 p q)
      = (∑ k : Fin 256, (xb (ix2 p k) + mb (ix2 p k)) * w (ix2 k q)) + bb (ix2 0 q) := by
  unfold k0_pay1
  rw [shapeCast_self, shapeCast_self, shapeCast_self, addf_apply, product_apply, bias_apply]
  rfl

end Cert.KernelIdeal.Block

end
-- ==== Proof.UpdateSpec.lean ====
/-
  The layer's dense update as ONE function of whole arrays. With `x` the node features, `agg` the aggregated
  messages (both 100000 rows of 256 channels), `wt` the 256 x 256 weights already transposed and `b` the bias,
  entry (r, j) of the result is the inner product of row r of `x + agg` with column j of `wt`, plus `b j`:

      entry x agg wt b r j = (sum over k < 256 of (x (r, k) + agg (r, k)) * wt (k, j)) + b j

  on the extended reals. The row-blocked kernel and the whole-array reference are both shown to compute this function.
-/
import Idealize.ShloMosaic.PureOps.Ideal
import Idealize.ShloMosaic.Lib.ValueIdx

noncomputable section

namespace Cert.DenseUpdate

open Idealize.ShloMosaic Idealize.ShloMosaic.ValueIdx

/-- Node features and messages: 100000 rows of 256 channels. -/
abbrev Nodes : Shape := ⟨2, ![100000, 256]⟩
/-- The transposed weights: input channel by output channel. -/
abbrev Weights : Shape := ⟨2, ![256, 256]⟩
/-- The bias: one entry per output channel. -/
abbrev Bias : Shape := ⟨1, ![256]⟩

/-- Entry (r, j): row r of `x + agg` against column j of `wt`, plus `b j`. -/
def entry (x agg : FVec Ideal Nodes .f32) (wt : FVec Ideal Weights .f32) (b : FVec Ideal Bias .f32)
    (r : Fin 100000) (j : Fin 256) : EReal :=
  (∑ k : Fin 256, (x (ix2 r k) + agg (ix2 r k)) * wt (ix2 k j)) + b (ix1 j)

/-- The whole result array: `entry` at each index's row and column. -/
def update (x agg : FVec Ideal Nodes .f32) (wt : FVec Ideal Weights .f32) (b : FVec Ideal Bias .f32) :
    FVec Ideal Nodes .f32 :=
  fun i => entry x agg wt b ⟨(i 0).val, (i 0).isLt⟩ ⟨(i 1).val, (i 1).isLt⟩

end Cert.DenseUpdate

end
-- ==== Proof.KernelValue.lean ====
/-
  From the kernel's 25 row blocks to its whole output array. Grid point t takes rows 4000 t .. 4000 t + 3999 of the
  features and of the aggregated messages, the whole transposed weights and the bias row, and writes back the same rows
  of the output; each stored entry is the dense update's entry at the array index the block places it at, and every
  row lies in exactly the block  row / 4000,  so after the run the output array is `update` of the arrays the region
  finds. Those arrays are what the host operations before the region computed from the arguments: the two segment sums,
  the transposed weights, the bias as a 1 x 256 row.
-/
import proofs.«173245_j17892833755481_1_alg».proof.Proof.Gen.KernelIdeal.Value
import proofs.«173245_j17892833755481_1_alg».proof.Proof.BlockValue
import proofs.«173245_j17892833755481_1_alg».proof.Proof.UpdateSpec
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.SL.Sem
open Idealize.ShloMosaic.StableHlo Idealize.ShloMosaic.ValueIdx Cert.DenseUpdate
open Idealize.ShloMosaic.Pipeline (Dat)

variable (m : (ℓ : Loc nD τ sig) → Buf (Elt Ideal) ℓ) (ρ : Dev nD → PrngReg)

/-! ## One stored entry is one entry of the update -/

/-- An index of a 4000 x 256 block is its row and column. -/
theorem block_index (j : S4000x256.Idx) :
    j = ix2 (n0 := 4000) (n1 := 256) ⟨(j 0).val, (j 0).isLt⟩ ⟨(j 1).val, (j 1).isLt⟩ := by
  funext a; match a with | ⟨0, _⟩ => rfl | ⟨1, _⟩ => rfl

/-- If the blocks the body loads are the rows of `x` and `agg` that array index `i` lies in, the whole weights and the
    bias row, then what it stores at block index `j` is the update's entry at `i`. -/
theorem stored_eq_entry (x agg : FVec Ideal S100000x256 .f32) (wt : FVec Ideal S256x256 .f32) (brow : FVec Ideal S1x256 .f32)
    (xb mb : Vec Ideal S4000x256 .f32) (w : Vec Ideal S256x256 .f32) (bb : Vec Ideal S1x256 .f32)
    (j : S4000x256.Idx) (r : Fin 100000) (q : Fin 256)
    (hx : ∀ k : Fin 256, xb (ix2 (n0 := 4000) (n1 := 256) ⟨(j 0).val, (j 0).isLt⟩ k) = x (ix2 r k))
    (hm : ∀ k : Fin 256, mb (ix2 (n0 := 4000) (n1 := 256) ⟨(j 0).val, (j 0).isLt⟩ k) = agg (ix2 r k))
    (hw : ∀ k : Fin 256, w (ix2 (n0 := 256) (n1 := 256) k ⟨(j 1).val, (j 1).isLt⟩) = wt (ix2 k q))
    (hb : bb (ix2 (n0 := 1) (n1 := 256) 0 ⟨(j 1).val, (j 1).isLt⟩) = brow (ix2 0 q)) :
    k0_pay1 (F := Ideal) xb mb w bb j = entry x agg wt (fun a => brow (ix2 0 (a 0))) r q := by
  refine (congrArg (k0_pay1 (F := Ideal) xb mb w bb) (block_index j)).trans ?_
  refine (Block.stored_apply xb mb w bb _ _).trans ?_
  unfold entry
  exact congrArg₂ (· + ·) (Finset.sum_congr rfl fun k _ => by rw [hx k, hm k, hw k]) hb

/-! ## The output array after the run -/

theorem origin : (![0, 0] : Fin 2 → Nat) = fun _ => 0 := funext fun a => by fin_cases a <;> rfl

/-- The printed index maps over the 25 points: the row windows and the output sit at the same block row, column
    block 0; the weights and the bias stay at block (0, 0). -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 24 ∧ win0_4.index t (1 : Fin 2) = 0 :=
  (by decide +kernel : ∀ t : Fin grid0.N, _)

/-- Every block row is some point's. -/
theorem block_onto : ∀ b : Fin 25, ∃ t : Fin cfg0.N, win0_4.index t = ![b.val, 0] :=
  (by decide +kernel : ∀ b : Fin 25, ∃ t : Fin grid0.N, win0_4.index t = ![b.val, 0])

/-- For ANY four arrays in the windows' places: the body run on point t's blocks of them stores block t of their
    `update`. The row windows read the rows the output block covers, the weights and the bias row are read whole. -/
theorem block_of_update (A0 A1 : FVec Ideal S100000x256 .f32) (A2 : FVec Ideal S256x256 .f32) (A3 : FVec Ideal S1x256 .f32)
    (t : Fin cfg0.N) :
    (cfg0.win 4).cut (grid0.coords t) (k0_pay1 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) A3))
      = ((cfg0.win 4).blk t).view.read (Elt Ideal) (update A0 A1 A2 (fun a => A3 (ix2 0 (a 0)))) := by
  obtain ⟨e00, e01, e10, e11, e20, e21, e30, e31, e40, e41⟩ := index_facts t
  funext j
  have hj0 : (j 0).val < 4000 := (j 0).isLt
  have hj1 : (j 1).val < 256 := (j 1).isLt
  show k0_pay1 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) A3) j
    = entry A0 A1 A2 (fun a => A3 (ix2 0 (a 0)))
        ⟨((((cfg0.win 4).blk t).view.emb j) 0).val, ((((cfg0.win 4).blk t).view.emb j) 0).isLt⟩
        ⟨((((cfg0.win 4).blk t).view.emb j) 1).val, ((((cfg0.win 4).blk t).view.emb j) 1).isLt⟩
  refine stored_eq_entry A0 A1 A2 A3
    (((cfg0.win 0).blk t).view.read (Elt Ideal) A0) (((cfg0.win 1).blk t).view.read (Elt Ideal) A1)
    (((cfg0.win 2).blk t).view.read (Elt Ideal) A2) (((cfg0.win 3).blk t).view.read (Elt Ideal) A3) j _ _ ?_ ?_ ?_ ?_
  · intro k
    show A0 (((cfg0.win 0).blk t).view.emb (ix2 (n0 := 4000) (n1 := 256) ⟨(j 0).val, (j 0).isLt⟩ k)) = _
    refine congrArg A0 (funext fun a => Fin.ext ?_)
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 256 + 1 * k.val = k.val; omega
  · intro k
    show A1 (((cfg0.win 1).blk t).view.emb (ix2 (n0 := 4000) (n1 := 256) ⟨(j 0).val, (j 0).isLt⟩ k)) = _
    refine congrArg A1 (funext fun a => Fin.ext ?_)
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 256 + 1 * k.val = k.val; omega
  · intro k
    show A2 (((cfg0.win 2).blk t).view.emb (ix2 (n0 := 256) (n1 := 256) k ⟨(j 1).val, (j 1).isLt⟩)) = _
    refine congrArg A2 (funext fun a => Fin.ext ?_)
    match a with
    | ⟨0, _⟩ => show win0_2.index t (0 : Fin 2) * 256 + 1 * k.val = k.val; omega
    | ⟨1, _⟩ => show win0_2.index t (1 : Fin 2) * 256 + 1 * (j 1).val = win0_4.index t (1 : Fin 2) * 256 + 1 * (j 1).val; omega
  · show A3 (((cfg0.win 3).blk t).view.emb (ix2 (n0 := 1) (n1 := 256) 0 ⟨(j 1).val, (j 1).isLt⟩)) = _
    refine congrArg A3 (funext fun a => Fin.ext ?_)
    match a with
    | ⟨0, _⟩ => show win0_3.index t (0 : Fin 2) * 1 + 1 * 0 = 0; omega
    | ⟨1, _⟩ => show win0_3.index t (1 : Fin 2) * 256 + 1 * (j 1).val = win0_4.index t (1 : Fin 2) * 256 + 1 * (j 1).val; omega

/-- What the output array ends holding, in terms of the arrays the region finds. -/
def result (c : Dev nD) : FVec Ideal S100000x256 .f32 :=
  update (V m c main_arg0) (V m c main_v19) (V m c main_v20) (fun a => V m c main_v21 (ix2 0 (a 0)))

/-- What point t writes back is block t of `result`: the body's stores on the blocks of the arrays the region finds. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero origin]
  simp only [View.ld_unit_zero (S := S4000x256) origin, View.ld_unit_zero (S := S256x256) origin, View.ld_unit_zero (S := S1x256) origin]
  exact block_of_update (V m c main_arg0) (V m c main_v19) (V m c main_v20) (V m c main_v21) t

/-- An array index is in point t's block iff each coordinate is in the block's range on its axis. -/
theorem mem_block (t : Fin cfg0.N) (i : S100000x256.Idx) :
    i ∈ ((cfg0.win 4).blk t).view.set ↔ ∀ a : Fin 2, win0_4.index t a * S4000x256.size a ≤ (i a).val ∧ (i a).val < win0_4.index t a * S4000x256.size a + S4000x256.size a := by
  show i ∈ ((View.whole main_v22).slice (win0_4.rect t)).set ↔ _
  rw [View.set_slice_whole, Rect.mem_set_unit]
  exact Iff.rfl

/-- Row r lies in the block of point  r / 4000. -/
theorem covered (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ := block_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 256 ≤ (i 1).val ∧ (i 1).val < win0_4.index t (1 : Fin 2) * 256 + 256; omega

/-- The output array after the run is `result`. -/
theorem final (c : Dev nD) : (dats m 0 c).arrAt 4 cfg0.N = result m c :=
  (dats m 0 c).arrAt_eq_of_cover 4 (result m c) (fun t _ => flushed_eq m c t) covered

end Cert.KernelIdeal.Rows

end
-- ==== Proof.HostArrays.lean ====
/-
  The arrays the kernel's region finds, as functions of the arguments. Before the region the host computes, from the
  features `x`, the node ids and the edge ids (800000 incidences): per hyperedge the sum of its member nodes' rows
  (a gather of the rows at the node ids, negative ids wrapped once, scatter-added at the edge ids into zeros), then per
  node the sum of its incident hyperedges' rows (the same with the roles of the ids exchanged); the weights transposed;
  and the bias laid out as a 1 x 256 row. None of these operations is opened: both programs apply the same ones.
-/
import proofs.«173245_j17892833755481_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

/-- Per hyperedge, the sum of its member nodes' feature rows. -/
def edgeSums (x : (⟨S100000x256, .f32⟩ : BufTy).Contents (Elt Ideal)) (node edge : (⟨S800000, .i32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 edge)
    (Host.gather gather_S100000x256_S800000x1_S800000x256_1_0_n_n_0_1_1256 x
      (broadcastInDim S800000x1 ![0] bcast_S800000_S800000x1_0
        (select (cmpi .slt node (broadcastInDim S800000 ![] bcast_S_S800000 (constantI S_ 32 0#32)))
          (addi node (broadcastInDim S800000 ![] bcast_S_S800000 (constantI S_ 32 100000#32))) node)))

/-- Per node, the sum of its incident hyperedges' rows of `edgeSums`. -/
def nodeSums (x : (⟨S100000x256, .f32⟩ : BufTy).Contents (Elt Ideal)) (node edge : (⟨S800000, .i32⟩ : BufTy).Contents (Elt Ideal)) :
    (⟨S100000x256, .f32⟩ : BufTy).Contents (Elt Ideal) :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 node)
    (Host.gather gather_S50000x256_S800000x1_S800000x256_1_0_n_n_0_1_1256 (edgeSums x node edge)
      (broadcastInDim S800000x1 ![0] bcast_S800000_S800000x1_0
        (select (cmpi .slt edge (broadcastInDim S800000 ![] bcast_S_S800000 (constantI S_ 32 0#32)))
          (addi edge (broadcastInDim S800000 ![] bcast_S_S800000 (constantI S_ 32 50000#32))) edge)))

variable (m : (ℓ : Loc nD τ sig) → Buf (Elt Ideal) ℓ)

/-- The second result's array holds the hyperedge sums. -/
theorem edge_sums (c : Dev nD) :
    (V m c main_v9 : S50000x256.Idx → EReal)
      = edgeSums (m ((c : Thread nD τ).loc main_arg0)) (m ((c : Thread nD τ).loc main_arg1)) (m ((c : Thread nD τ).loc main_arg2)) := by
  dsimp only [Gen.V, Gen.hostOps0]; after_results <;> rfl

set_option maxHeartbeats 2000000 in
/-- The second row window's array holds the node sums. -/
theorem node_sums (c : Dev nD) :
    (V m c main_v19 : S100000x256.Idx → EReal)
      = nodeSums (m ((c : Thread nD τ).loc main_arg0)) (m ((c : Thread nD τ).loc main_arg1)) (m ((c : Thread nD τ).loc main_arg2)) := by
  dsimp only [Gen.V, Gen.hostOps0]; after_results_simp <;> rfl

/-- The weights window's array holds the transposed weights. -/
theorem weights_t (c : Dev nD) :
    (V m c main_v20 : S256x256.Idx → EReal)
      = transpose S256x256 [1, 0] (m ((c : Thread nD τ).loc main_arg3)) transposes_S256x256_S256x256_1_0 := by
  dsimp only [Gen.V, Gen.hostOps0]; after_results <;> rfl

/-- The bias window's array holds the bias laid out as a 1 x 256 row. -/
theorem bias_row (c : Dev nD) :
    (V m c main_v21 : S1x256.Idx → EReal)
      = shapeCast S1x256 (m ((c : Thread nD τ).loc main_arg4)) shapeCasts_S256_S1x256 := by
  dsimp only [Gen.V, Gen.hostOps0]; after_results <;> rfl

/-- Entry (0, q) of that row is entry q of the bias. -/
theorem bias_row_apply (c : Dev nD) :
    (fun a : (⟨1, ![256]⟩ : Shape).Idx => (V m c main_v21 : S1x256.Idx → EReal) (ix2 0 (a 0)))
      = m ((c : Thread nD τ).loc main_arg4) := by
  funext a
  rw [bias_row]
  refine (shapeCast_addUnit_apply (n := 1) ![256] (m ((c : Thread nD τ).loc main_arg4)) shapeCasts_S256_S1x256 (ix2 0 (a 0))).trans ?_
  refine congrArg (m ((c : Thread nD τ).loc main_arg4)) (funext fun d => ?_)
  match d with
  | ⟨0, _⟩ => rfl

end Cert.KernelIdeal.Found

end
-- ==== Proof.KernelRun.lean ====
/-
  The kernel's run, read: after every weakly fair execution the first result is the dense update of the features, the
  node sums, the transposed weights and the bias, the second result is the hyperedge sums (a host result the region
  leaves as it found it), and the arguments are unchanged.
-/
import proofs.«173245_j17892833755481_1_alg».proof.Proof.KernelValue
import proofs.«173245_j17892833755481_1_alg».proof.Proof.HostArrays

noncomputable section

namespace Cert.KernelIdeal.Whole

open Cert.KernelIdeal Cert.KernelIdeal.Gen Idealize.ShloMosaic Idealize.ShloMosaic.TcCoe Idealize.SL.Sem
open Cert.DenseUpdate Cert.KernelIdeal.Rows Cert.KernelIdeal.Found

variable (m : (ℓ : Loc nD τ sig) → Buf (Elt Ideal) ℓ) (ρ : Dev nD → PrngReg)

/-- The output array, in terms of the arguments: each array the region finds is the host's function of them. -/
theorem result_args (c : Dev nD) :
    result m c = update (m ((c : Thread nD τ).loc main_arg0))
      (nodeSums (m ((c : Thread nD τ).loc main_arg0)) (m ((c : Thread nD τ).loc main_arg1)) (m ((c : Thread nD τ).loc main_arg2)))
      (transpose S256x256 [1, 0] (m ((c : Thread nD τ).loc main_arg3)) transposes_S256x256_S256x256_1_0)
      (m ((c : Thread nD τ).loc main_arg4)) := by
  unfold result
  rw [V_main_arg0 m c, node_sums m c, weights_t m c, bias_row_apply m c]

theorem run : θ_run defs (onTc (τ := τ) (main (F := Ideal))) ⟨m, fun _ => 0, ρ⟩ fun r => ∀ c : Dev nD,
      r.2.mem ((c : Thread nD τ).loc main_v22) = update (m ((c : Thread nD τ).loc main_arg0))
        (nodeSums (m ((c : Thread nD τ).loc main_arg0)) (m ((c : Thread nD τ).loc main_arg1)) (m ((c : Thread nD τ).loc main_arg2)))
        (transpose S256x256 [1, 0] (m ((c : Thread nD τ).loc main_arg3)) transposes_S256x256_S256x256_1_0)
        (m ((c : Thread nD τ).loc main_arg4))
      ∧ r.2.mem ((c : Thread nD τ).loc main_v9) = edgeSums (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((Value.post4 m r h c).trans (final m c)).trans (result_args m c),
      ((h c).2 main_v9 (Pipeline.mem_restRefs_of main_v9 (by decide) (by decide))).trans (edge_sums m c),
      Value.kept_main_arg0 m r h c,
      Value.kept_main_arg1 m r h c,
      Value.kept_main_arg2 m r h c,
      Value.kept_main_arg3 m r h c,
      Value.kept_main_arg4 m r h c⟩)
    (run_main m ρ)

end Cert.KernelIdeal.Whole

end
-- ==== Proof.RefValue.lean ====
/-
  The reference computes the dense update. Its last stage adds the bias, spread over the rows, to a whole-array
  product of `1 * x + agg` with the transposed weights; on the extended reals `1 * y = y` for every `y`, infinite
  ones included, so entry (r, j) is  (sum over k < 256 of (x (r, k) + agg (r, k)) * wt (k, j)) + b j.
-/
import proofs.«173245_j17892833755481_1_alg».proof.Proof.Gen.ReferenceIdeal.Read
import proofs.«173245_j17892833755481_1_alg».proof.Proof.UpdateSpec
import Idealize.ShloMosaic.Lib.IdealHost

noncomputable section

namespace Cert.ReferenceIdeal.Whole

open Cert.ReferenceIdeal Cert.ReferenceIdeal.Read Idealize.ShloMosaic Idealize.ShloMosaic.ValueIdx Cert.DenseUpdate

/-- The reference's first result is `update` of the features, the aggregated messages, the transposed weights and
    the bias. -/
theorem result_eq (x0 : (⟨S100000x256, .f32⟩ : BufTy).Contents (Elt Ideal)) (x1 x2 : (⟨S800000, .i32⟩ : BufTy).Contents (Elt Ideal))
    (x3 : (⟨S256x256, .f32⟩ : BufTy).Contents (Elt Ideal)) (x4 : (⟨S256, .f32⟩ : BufTy).Contents (Elt Ideal)) :
    val_main_v27 (F := Ideal) x0 x1 x2 x3 x4
      = update x0 (val_main_v19 (F := Ideal) x0 x1 x2) (val_main_v23 (F := Ideal) x3) x4 := by
  funext i
  rw [val_main_v27_apply, val_main_v24_apply, val_main_v26_apply, val_main_v25_apply]
  show (∑ k : Fin 256, _) + _
    = entry x0 (val_main_v19 (F := Ideal) x0 x1 x2) (val_main_v23 (F := Ideal) x3) x4 ⟨(i 0).val, (i 0).isLt⟩ ⟨(i 1).val, (i 1).isLt⟩
  unfold entry
  congr 1
  · refine Finset.sum_congr rfl fun k _ => ?_
    have el : lidx_main_v24 i k = ix2 (n0 := 100000) (n1 := 256) ⟨(i 0).val, (i 0).isLt⟩ k := funext fun a => Fin.ext (by
      match a with
      | ⟨0, _⟩ => rfl
      | ⟨1, _⟩ => rfl)
    have er : ridx_main_v24 i k = ix2 (n0 := 256) (n1 := 256) k ⟨(i 1).val, (i 1).isLt⟩ := funext fun a => Fin.ext (by
      match a with
      | ⟨0, _⟩ => rfl
      | ⟨1, _⟩ => rfl)
    rw [el, er, val_main_v22_apply, val_main_v21_apply, val_main_v20_apply, val_main_cst_4_apply]
    simp only [Ideal.addf_def, Ideal.mulf_def, Ideal.ofBits_def, Ideal.ofBits_one_f32, one_mul]
  · refine congrArg x4 (funext fun a => Fin.ext ?_)
    match a with
    | ⟨0, _⟩ => rfl

end Cert.ReferenceIdeal.Whole

end
-- ==== Proof.lean ====
/-
  The kernel and the reference agree on the extended reals. Both first form, by the same host operations, the
  hyperedge sums (the second result) and from them the node sums `agg`. The kernel then walks 25 blocks of 4000 rows
  and stores, per block, (x + agg) times the transposed weights plus the bias row; the reference forms
  1 * x + agg over the whole array, multiplies by the transposed weights and adds the bias spread over the rows.
  Entry (r, j) of either is  (sum over k < 256 of (x (r, k) + agg (r, k)) * wt (k, j)) + b j : the narrowings to bf16
  are the identity on extended reals, a product into a zero accumulator is the plain sum, and 1 * y = y for every
  extended real y, so no finiteness of the inputs is used. The frames of the two kernel programs are the generated ones;
  the reference's frame is its generated run with the results dropped.
-/
import proofs.«173245_j17892833755481_1_alg».proof.Defs
import proofs.«173245_j17892833755481_1_alg».proof.Proof.Gen.Kernel
import proofs.«173245_j17892833755481_1_alg».proof.Proof.Gen.Kernel.Skeleton
import proofs.«173245_j17892833755481_1_alg».proof.Proof.Gen.Kernel.Launch
import proofs.«173245_j17892833755481_1_alg».proof.Proof.Gen.Kernel.Points
import proofs.«173245_j17892833755481_1_alg».proof.Proof.Gen.Kernel.Frame
import proofs.«173245_j17892833755481_1_alg».proof.Proof.Gen.KernelIdeal
import proofs.«173245_j17892833755481_1_alg».proof.Proof.Gen.KernelIdeal.Skeleton
import proofs.«173245_j17892833755481_1_alg».proof.Proof.Gen.KernelIdeal.Launch
import proofs.«173245_j17892833755481_1_alg».proof.Proof.Gen.KernelIdeal.Points
import proofs.«173245_j17892833755481_1_alg».proof.Proof.Gen.KernelIdeal.Frame
import proofs.«173245_j17892833755481_1_alg».proof.Proof.Gen.ReferenceIdeal
import proofs.«173245_j17892833755481_1_alg».proof.Proof.Gen.Pre_finite_inputs
import proofs.«173245_j17892833755481_1_alg».proof.Proof.Gen.KernelIdeal.Value
import proofs.«173245_j17892833755481_1_alg».proof.Proof.Gen.ReferenceIdeal.Run
import proofs.«173245_j17892833755481_1_alg».proof.Proof.Gen.ReferenceIdeal.Read
import proofs.«173245_j17892833755481_1_alg».proof.Proof.KernelRun
import proofs.«173245_j17892833755481_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run keeps the arguments; its two results are dropped here. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the dense update as first result and the hyperedge sums as
    second: the reference's whole-array term is that update (`Whole.result_eq`), and the segment sums, the
    transposed weights and the bias are the same operations of the same arguments on both sides. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2]
    exact (Cert.ReferenceIdeal.Read.val_main_v27_eq _ _ _ _ _).trans ((Cert.ReferenceIdeal.Whole.result_eq _ _ _ _ _).trans rfl)
  · rw [(hagree c).1, (hagree c).2.1, (hagree c).2.2.1]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
